-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2x8192x1024 : Shape := ⟨3, ![2, 8192, 1024]⟩
abbrev S4096x1024 : Shape := ⟨2, ![4096, 1024]⟩
abbrev S4096 : Shape := ⟨1, ![4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2x8192x1024 : S_.BroadcastsInDim S2x8192x1024 (![] : Fin 0 → Fin S2x8192x1024.rank)
  reducesTo_S2x8192x1024_S_d0_1_2 : S2x8192x1024.ReducesTo [0, 1, 2] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x1024 .f32) (main_arg5 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S8192x1024 .f32) (main_arg1 : FVec F S2x8192x1024 .f32) (main_arg2 : FVec F S4096x1024 .f32) (main_arg3 : FVec F S4096 .f32) (main_arg4 : FVec F S4096x1024 .f32) (main_arg5 : FVec F S4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2x8192x1024 .f32 := Host.absf main_arg1
  let main_cst_0 : FVec F S_ .f32 := constant S_ .f32 0x7F800000#32
  let main_v5 : FVec F S2x8192x1024 .f32 := broadcastInDim S2x8192x1024 ![] bcast_S_S2x8192x1024 main_cst_0
  let main_v6 : IVec S2x8192x1024 1 := cmpf .olt main_v4 main_v5
  let main_c_1 : IVec S_ 1 := constantI S_ 1 1#1
  let main_v7 : IVec S_ 1 := (fun x v => Host.reduce IntOp.andi x v reducesTo_S2x8192x1024_S_d0_1_2 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S8192x1024 : Shape := ⟨2, ![8192, 1024]⟩
abbrev S2x8192x1024 : Shape := ⟨3, ![2, 8192, 1024]⟩
abbrev S4096x1024 : Shape := ⟨2, ![4096, 1024]⟩
abbrev S4096 : Shape := ⟨1, ![4096]⟩
abbrev S1x8192x1024 : Shape := ⟨3, ![1, 8192, 1024]⟩
abbrev S1024x4096 : Shape := ⟨2, ![1024, 4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 21
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S2x8192x1024, .f32⟩
  | .hbm, ⟨2, _⟩ => ⟨S4096x1024, .f32⟩
  | .hbm, ⟨3, _⟩ => ⟨S4096, .f32⟩
  | .hbm, ⟨4, _⟩ => ⟨S4096x1024, .f32⟩
  | .hbm, ⟨5, _⟩ => ⟨S4096, .f32⟩
  | .hbm, ⟨6, _⟩ => ⟨S1x8192x1024, .f32⟩
  | .hbm, ⟨7, _⟩ => ⟨S8192x1024, .f32⟩
  | .hbm, ⟨8, _⟩ => ⟨S1x8192x1024, .f32⟩
  | .hbm, ⟨9, _⟩ => ⟨S8192x1024, .f32⟩
  | .hbm, ⟨10, _⟩ => ⟨S1024x4096, .f32⟩
  | .hbm, ⟨11, _⟩ => ⟨S1024x4096, .bf16⟩
  | .hbm, ⟨12, _⟩ => ⟨S1024x4096, .f32⟩
  | .hbm, ⟨13, _⟩ => ⟨S1024x4096, .bf16⟩
  | .hbm, ⟨14, _⟩ => ⟨S1x4096, .f32⟩
  | .hbm, ⟨15, _⟩ => ⟨S1x4096, .f32⟩
  | .hbm, ⟨16, _⟩ => ⟨S8192x1024, .f32⟩
  | .hbm, ⟨17, _⟩ => ⟨S8192x1024, .f32⟩
  | .hbm, ⟨18, _⟩ => ⟨S1x8192x1024, .f32⟩
  | .hbm, ⟨19, _⟩ => ⟨S1x8192x1024, .f32⟩
  | .hbm, ⟨20, _⟩ => ⟨S2x8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S1x4096, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x8192x1024_S1x8192x1024_0_0_0 : S2x8192x1024.Slices ![0, 0, 0] S1x8192x1024
  shapeCasts_S1x8192x1024_S8192x1024 : S1x8192x1024.ShapeCasts S8192x1024
  slices_S2x8192x1024_S1x8192x1024_1_0_0 : S2x8192x1024.Slices ![1, 0, 0] S1x8192x1024
  transposes_S4096x1024_S1024x4096_1_0 : S4096x1024.Transposes [1, 0] S1024x4096
  bitsLt_bf16_f32 : FTy.bits .bf16 < FTy.bits .f32
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  bcast_S8192x1024_S1x8192x1024_1_2 : S8192x1024.BroadcastsInDim S1x8192x1024 (![1, 2] : Fin 2 → Fin S1x8192x1024.rank)
  concatenates_S1x8192x1024_S1x8192x1024_S2x8192x1024_d0 : Shape.Concatenates [S1x8192x1024, S1x8192x1024] S2x8192x1024 0
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S8192x1024.size a
  hwx0_8 : ∀ i : grid0.Coords, EltTy.bits .f32 = 32 ∨ (Rect.block (s := S8192x1024) S256x1024.size (cc0_transform_8 i) (hinb0_8 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10_0) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_1) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2x8192x1024 : Shape := ⟨3, ![2, 8192, 1024]⟩
abbrev S4096x1024 : Shape := ⟨2, ![4096, 1024]⟩
abbrev S4096 : Shape := ⟨1, ![4096]⟩
abbrev S1x8192x1024 : Shape := ⟨3, ![1, 8192, 1024]⟩
abbrev S8192x4096 : Shape := ⟨2, ![8192, 4096]⟩
abbrev S1x4096 : Shape := ⟨2, ![1, 4096]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x8192x1024, .f32⟩
  | .hbm, ⟨2, _⟩ => ⟨S4096x1024, .f32⟩
  | .hbm, ⟨3, _⟩ => ⟨S4096, .f32⟩
  | .hbm, ⟨4, _⟩ => ⟨S4096x1024, .f32⟩
  | .hbm, ⟨5, _⟩ => ⟨S4096, .f32⟩
  | .hbm, ⟨6, _⟩ => ⟨S1x8192x1024, .f32⟩
  | .hbm, ⟨7, _⟩ => ⟨S8192x1024, .f32⟩
  | .hbm, ⟨8, _⟩ => ⟨S1x8192x1024, .f32⟩
  | .hbm, ⟨9, _⟩ => ⟨S8192x1024, .f32⟩
  | .hbm, ⟨10, _⟩ => ⟨S8192x4096, .f32⟩
  | .hbm, ⟨11, _⟩ => ⟨S1x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x8192x1024, .f32⟩
  | .hbm, ⟨54, _⟩ => ⟨S1x8192x1024, .f32⟩
  | .hbm, ⟨55, _⟩ => ⟨S2x8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]

class Facts₀ : Prop where
  slices_S2x8192x1024_S1x8192x1024_0_0_0 : S2x8192x1024.Slices ![0, 0, 0] S1x8192x1024
  shapeCasts_S1x8192x1024_S8192x1024 : S1x8192x1024.ShapeCasts S8192x1024
  slices_S2x8192x1024_S1x8192x1024_1_0_0 : S2x8192x1024.Slices ![1, 0, 0] S1x8192x1024
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  bcast_S8192x1024_S1x8192x1024_1_2 : S8192x1024.BroadcastsInDim S1x8192x1024 (![1, 2] : Fin 2 → Fin S1x8192x1024.rank)
  concatenates_S1x8192x1024_S1x8192x1024_S2x8192x1024_d0 : Shape.Concatenates [S1x8192x1024, S1x8192x1024] S2x8192x1024 0
  dot_S8192x1024_S4096x1024_S8192x4096_1_1_0_0_n_n_wf : DotDims.WF S8192x1024 S4096x1024 S8192x4096 [1] [1] [0] [0] [] []

variable [Facts₀]

def dot_S8192x1024_S4096x1024_S8192x4096_1_1_0_0_n_n : DotDims S8192x1024 S4096x1024 S8192x4096 where
  lhsContracting := [1]
  rhsContracting := [1]
  lhsNonContracting := [0]
  rhsNonContracting := [0]
  lhsBatch := []
  rhsBatch := []
  wf := dot_S8192x1024_S4096x1024_S8192x4096_1_1_0_0_n_n_wf

class Facts : Prop extends Facts₀ where

variable [Facts]
-- ==== Proof.Spec.lean ====
/-
  One step of an LSTM cell as a function of its six arrays, entry by entry, on the extended reals.

  For a batch row b and a gate column j (of the 4096 = 4 x 1024 stacked columns, in the order input, forget,
  candidate, output) the pre-activation is
      pre b j = sum_k x[b,k] * Wx[j,k] + sum_k h[b,k] * Wh[j,k] + bx[j] + bh[j],      h = state[0], c = state[1],
  and for a hidden unit q < 1024
      newC b q = sigma(pre b (1024 + q)) * c[b,q] + sigma(pre b q) * tanh(pre b (2048 + q)),
      newH b q = sigma(pre b (3072 + q)) * tanh(newC b q),
  with sigma(z) = 1 / (1 + e^(-z)).  The result stacks newH over newC.
  The four summands of the pre-activation may be added in any grouping: addition on the extended reals is
  commutative and associative, also at the infinities, so no finiteness of the entries is asked.
-/
import Idealize.ShloMosaic.PureOps.Ideal
import Idealize.ShloMosaic.Lib.ValueIdx

noncomputable section

namespace Cert.LstmSpec

open Idealize.ShloMosaic Idealize.ShloMosaic.ValueIdx

/-- The column of gate `s` (0 input, 1 forget, 2 candidate, 3 output) for hidden unit `q`. -/
abbrev col0 (q : Fin 1024) : Fin 4096 := ⟨q.val, by have := q.isLt; omega⟩
abbrev col1 (q : Fin 1024) : Fin 4096 := ⟨1024 + q.val, by have := q.isLt; omega⟩
abbrev col2 (q : Fin 1024) : Fin 4096 := ⟨2048 + q.val, by have := q.isLt; omega⟩
abbrev col3 (q : Fin 1024) : Fin 4096 := ⟨3072 + q.val, by have := q.isLt; omega⟩

variable (x : (⟨2, ![8192, 1024]⟩ : Shape).Idx → EReal) (st : (⟨3, ![2, 8192, 1024]⟩ : Shape).Idx → EReal)
  (wx : (⟨2, ![4096, 1024]⟩ : Shape).Idx → EReal) (bx : (⟨1, ![4096]⟩ : Shape).Idx → EReal)
  (wh : (⟨2, ![4096, 1024]⟩ : Shape).Idx → EReal) (bh : (⟨1, ![4096]⟩ : Shape).Idx → EReal)

/-- The input's contribution to gate column `j` of batch row `b`. -/
def dotX (b : Fin 8192) (j : Fin 4096) : EReal := ∑ k : Fin 1024, x (ix2 b k) * wx (ix2 j k)

/-- The previous hidden state's contribution (the hidden state is the first slab of `st`). -/
def dotH (b : Fin 8192) (j : Fin 4096) : EReal := ∑ k : Fin 1024, st (ix3 (0 : Fin 2) b k) * wh (ix2 j k)

/-- The pre-activation of gate column `j` for batch row `b`. -/
def pre (b : Fin 8192) (j : Fin 4096) : EReal := dotX x wx b j + dotH st wh b j + bx (ix1 j) + bh (ix1 j)

/-- The same four summands grouped as (input + its bias) + hidden + the other bias. -/
theorem pre_regroup (b : Fin 8192) (j : Fin 4096) :
    dotX x wx b j + bx (ix1 j) + dotH st wh b j + bh (ix1 j) = pre x st wx bx wh bh b j := by
  unfold pre
  rw [add_right_comm (dotX x wx b j) (bx (ix1 j)) (dotH st wh b j)]

/-- The new cell state (the cell state is the second slab of `st`). -/
def newC (b : Fin 8192) (q : Fin 1024) : EReal :=
  Ideal.logistic (pre x st wx bx wh bh b (col1 q)) * st (ix3 (1 : Fin 2) b q)
    + Ideal.logistic (pre x st wx bx wh bh b (col0 q)) * Ideal.tanh (pre x st wx bx wh bh b (col2 q))

/-- The new hidden state. -/
def newH (b : Fin 8192) (q : Fin 1024) : EReal :=
  Ideal.logistic (pre x st wx bx wh bh b (col3 q)) * Ideal.tanh (newC x st wx bx wh bh b q)

end Cert.LstmSpec

end
-- ==== Proof.RefSide.lean ====
/-
  The reference, read entry by entry, is the LSTM step of Spec.lean.

  Its pre-activation adds the four summands as ((x.Wx^T + bx) + h.Wh^T) + bh; each product is a sum over the 1024
  contracted coordinates, the hidden state h is slab 0 of the state array read through a reshape that drops the
  unit axis, and each bias is broadcast along the batch rows.  The four gates are column blocks of width 1024.
  The reference spells the logistic function out as 1 / (1 + exp(-z)) with the constant 1.0, which on the
  extended reals is the logistic function itself.
-/
import proofs.«101910_j72997264163163_1_alg».proof.Proof.Gen.ReferenceIdeal.Read
import proofs.«101910_j72997264163163_1_alg».proof.Proof.Spec

noncomputable section

namespace Cert.LstmRef

open Cert.ReferenceIdeal Cert.ReferenceIdeal.Read Cert.LstmSpec Idealize.ShloMosaic Idealize.ShloMosaic.ValueIdx

/-- The float pattern 0x3F800000 is the number one. -/
theorem one_f32 : Ideal.ofBits .f32 0x3F800000#32 = 1 := by
  simp [Ideal.ofBits, Ideal.ieee, -EReal.coe_mul]
  norm_num

/-- 1 / (1 + exp(-z)) with both ones spelt as that pattern is the logistic function. -/
theorem host_sigmoid (z : EReal) :
    Ideal.div (Ideal.ofBits .f32 0x3F800000#32) (Ideal.ofBits .f32 0x3F800000#32 + Ideal.exp (-z)) = Ideal.logistic z := by
  rw [one_f32]; rfl

variable (x0 : (⟨S8192x1024, .f32⟩ : BufTy).Contents (Elt Ideal)) (x1 : (⟨S2x8192x1024, .f32⟩ : BufTy).Contents (Elt Ideal))
  (x2 : (⟨S4096x1024, .f32⟩ : BufTy).Contents (Elt Ideal)) (x3 : (⟨S4096, .f32⟩ : BufTy).Contents (Elt Ideal))
  (x4 : (⟨S4096x1024, .f32⟩ : BufTy).Contents (Elt Ideal)) (x5 : (⟨S4096, .f32⟩ : BufTy).Contents (Elt Ideal))

/-! ### The index maps of the layout operations, at an entry given by its coordinates -/

theorem lidx4 (b : Fin 8192) (j : Fin 4096) (k : Fin 1024) : lidx_main_v4 (ix2 b j) k = ix2 b k :=
  funext fun a => Fin.ext (by match a with | ⟨0, _⟩ => rfl | ⟨1, _⟩ => rfl)
theorem ridx4 (b : Fin 8192) (j : Fin 4096) (k : Fin 1024) : ridx_main_v4 (ix2 b j) k = ix2 j k :=
  funext fun a => Fin.ext (by match a with | ⟨0, _⟩ => rfl | ⟨1, _⟩ => rfl)
theorem ridx8 (b : Fin 8192) (j : Fin 4096) (k : Fin 1024) : ridx_main_v8 (ix2 b j) k = ix2 j k :=
  funext fun a => Fin.ext (by match a with | ⟨0, _⟩ => rfl | ⟨1, _⟩ => rfl)
/-- The hidden state's row b, column k, through the reshape and the slice of slab 0. -/
theorem hidx (b : Fin 8192) (j : Fin 4096) (k : Fin 1024) :
    idx_main_v0 (idx_main_v1 (lidx_main_v8 (ix2 b j) k)) = ix3 (0 : Fin 2) b k :=
  funext fun a => Fin.ext (by
    have hb := b.isLt; have hk := k.isLt
    match a with
    | ⟨0, _⟩ => rfl
    | ⟨1, _⟩ => show (b.val * 1024 + k.val) / 1024 % 8192 = b.val; omega
    | ⟨2, _⟩ => show (b.val * 1024 + k.val) % 1024 = k.val; omega)
/-- The cell state's row b, column q, through the reshape and the slice of slab 1. -/
theorem cidx (b : Fin 8192) (q : Fin 1024) : idx_main_v2 (idx_main_v3 (ix2 b q)) = ix3 (1 : Fin 2) b q :=
  funext fun a => Fin.ext (by
    have hb := b.isLt; have hq := q.isLt
    match a with
    | ⟨0, _⟩ => rfl
    | ⟨1, _⟩ => show (b.val * 1024 + q.val) / 1024 % 8192 = b.val; omega
    | ⟨2, _⟩ => show (b.val * 1024 + q.val) % 1024 = q.val; omega)
theorem bidx5 (b : Fin 8192) (j : Fin 4096) : idx_main_v5 (idx_main_v6 (ix2 b j)) = ix1 j :=
  funext fun a => Fin.ext (by match a with | ⟨0, _⟩ => rfl)
theorem bidx10 (b : Fin 8192) (j : Fin 4096) : idx_main_v10 (idx_main_v11 (ix2 b j)) = ix1 j :=
  funext fun a => Fin.ext (by match a with | ⟨0, _⟩ => rfl)
theorem gidx13 (b : Fin 8192) (q : Fin 1024) : idx_main_v13 (ix2 b q) = ix2 b (col0 q) :=
  funext fun a => Fin.ext (by match a with | ⟨0, _⟩ => rfl | ⟨1, _⟩ => rfl)
theorem gidx14 (b : Fin 8192) (q : Fin 1024) : idx_main_v14 (ix2 b q) = ix2 b (col1 q) :=
  funext fun a => Fin.ext (by match a with | ⟨0, _⟩ => rfl | ⟨1, _⟩ => rfl)
theorem gidx15 (b : Fin 8192) (q : Fin 1024) : idx_main_v15 (ix2 b q) = ix2 b (col2 q) :=
  funext fun a => Fin.ext (by match a with | ⟨0, _⟩ => rfl | ⟨1, _⟩ => rfl)
theorem gidx16 (b : Fin 8192) (q : Fin 1024) : idx_main_v16 (ix2 b q) = ix2 b (col3 q) :=
  funext fun a => Fin.ext (by match a with | ⟨0, _⟩ => rfl | ⟨1, _⟩ => rfl)

/-- The reference's pre-activation array is `pre`. -/
theorem ref_pre (b : Fin 8192) (j : Fin 4096) :
    val_main_v12 (F := Ideal) x0 x1 x2 x3 x4 x5 (ix2 b j) = pre x0 x1 x2 x3 x4 x5 b j := by
  rw [← pre_regroup]
  rw [val_main_v12_apply, val_main_v9_apply, val_main_v7_apply, val_main_v4_apply, val_main_v6_apply, val_main_v5_apply,
    val_main_v8_apply, val_main_v11_apply, val_main_v10_apply]
  simp only [val_main_v1_apply, val_main_v0_apply, Ideal.addf_def, lidx4, ridx4, ridx8, hidx, bidx5, bidx10]
  rfl

/-- The reference's new cell state. -/
theorem ref_newC (b : Fin 8192) (q : Fin 1024) :
    val_main_v38 (F := Ideal) x0 x1 x2 x3 x4 x5 (ix2 b q) = newC x0 x1 x2 x3 x4 x5 b q := by
  rw [val_main_v38_apply, val_main_v36_apply, val_main_v37_apply, val_main_v28_apply, val_main_v22_apply, val_main_v29_apply,
    val_main_v26_apply, val_main_v20_apply, val_main_v24_apply, val_main_v18_apply, val_main_v23_apply, val_main_v17_apply,
    val_main_v14_apply, val_main_v13_apply, val_main_v15_apply, val_main_v3_apply, val_main_v2_apply,
    val_main_v27_apply, val_main_v25_apply, val_main_v21_apply, val_main_v19_apply,
    val_main_cst_apply, val_main_cst_0_apply, val_main_cst_1_apply, val_main_cst_2_apply,
    gidx13, gidx14, gidx15, cidx, ref_pre, ref_pre, ref_pre]
  simp only [Ideal.addf_def, Ideal.mulf_def, Ideal.hostDivf_def, Ideal.hostUnary_exp_def, Ideal.hostNegf_def, Ideal.negf_def,
    Ideal.hostUnary_tanh_def, Ideal.ofBits_def, host_sigmoid]
  rfl

/-- The reference's new hidden state. -/
theorem ref_newH (b : Fin 8192) (q : Fin 1024) :
    val_main_v40 (F := Ideal) x0 x1 x2 x3 x4 x5 (ix2 b q) = newH x0 x1 x2 x3 x4 x5 b q := by
  rw [val_main_v40_apply, val_main_v39_apply, ref_newC, val_main_v35_apply, val_main_v33_apply, val_main_v31_apply,
    val_main_v30_apply, val_main_v16_apply, val_main_v34_apply, val_main_v32_apply,
    val_main_cst_3_apply, val_main_cst_4_apply, gidx16, ref_pre]
  simp only [Ideal.addf_def, Ideal.mulf_def, Ideal.hostDivf_def, Ideal.hostUnary_exp_def, Ideal.hostNegf_def, Ideal.negf_def,
    Ideal.hostUnary_tanh_def, Ideal.ofBits_def, host_sigmoid]
  rfl

end Cert.LstmRef

end
-- ==== Proof.LibPlainDot.lean ====
/-
  A plain matrix product read at an index.  For the dimension numbers of rows-by-columns (the left operand contracted on
  its second axis, the right on its first, no batch axis) the contraction index is one coordinate k, the left operand is
  read at (r, k) and the right at (k, c): the sum over the contraction shape is the sum over k < K of l[r,k] · r[k,c].
  Both a kernel's matrix unit into a zero accumulator and the host's dot product are this sum at the exact instance.
-/
import Idealize.ShloMosaic.PureOps.Ideal.Laws
import Idealize.ShloMosaic.Lib.ValueIdx

namespace Idealize.ShloMosaic.ValueIdx

open Idealize.ShloMosaic

variable {M K N : ℕ}

/-- The left operand's row is the result's row. -/
theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem plain_lhs_1 (i : (⟨2, ![M, N]⟩ : Shape).Idx) (q : (DotDims.plain M K N).contr.Idx) :
    ((DotDims.plain M K N).lhsIdx i q 1).val = (q ⟨0, by rw [DotDims.rank_contr]; exact Nat.one_pos⟩).val :=
  (DotDims.plain M K N).lhsIdx_val_of_single rfl i q

/-- The right operand's row is the contraction coordinate. -/
theorem plain_rhs_0 (i : (⟨2, ![M, N]⟩ : Shape).Idx) (q : (DotDims.plain M K N).contr.Idx) :
    ((DotDims.plain M K N).rhsIdx i q 0).val = (q ⟨0, by rw [DotDims.rank_contr]; exact Nat.one_pos⟩).val :=
  (DotDims.plain M K N).rhsIdx_val_of_single rfl i q

/-- The right operand's column is the result's column. -/
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product, over the one coordinate k < K. -/
theorem plain_dot_sum (l : (⟨2, ![M, K]⟩ : Shape).Idx → EReal) (r : (⟨2, ![K, N]⟩ : Shape).Idx → EReal)
    (i : (⟨2, ![M, N]⟩ : Shape).Idx) :
    ∑ k : (DotDims.plain M K N).contr.Idx, l ((DotDims.plain M K N).lhsIdx i k) * r ((DotDims.plain M K N).rhsIdx i k)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 _ _
      | ⟨1, _⟩ => exact (plain_lhs_1 _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 _ _).trans hk
      | ⟨1, _⟩ => exact plain_rhs_1 _ _)
  exact congrArg₂ (· * ·) (congrArg l el) (congrArg r er)

/-- A kernel's matrix unit into the zero accumulator, at the exact instance, read at an index. -/
theorem plain_matmul_zero_apply {φ₁ φ₂ : FTy} (prec : Option ContractPrecision)
    (l : FVec Ideal (⟨2, ![M, K]⟩ : Shape) φ₁) (r : FVec Ideal (⟨2, ![K, N]⟩ : Shape) φ₂) (i : (⟨2, ![M, N]⟩ : Shape).Idx) :
    FloatOps.matmul (DotDims.plain M K N) prec l r (constant (⟨2, ![M, N]⟩ : Shape) .f32 0x00000000#32) i
      = ∑ k : Fin K, l (ix2 (i 0) k) * r (ix2 k (i 1)) :=
  (Ideal.matmul_constant_zero_apply _ prec l r i).trans (plain_dot_sum l r i)

/-- The host's dot product, at the exact instance, read at an index. -/
theorem plain_dotGeneral_apply {φ₁ φ₂ : FTy} (prec : Option ContractPrecision) (sched : HostSchedule)
    (l : FVec Ideal (⟨2, ![M, K]⟩ : Shape) φ₁) (r : FVec Ideal (⟨2, ![K, N]⟩ : Shape) φ₂) (i : (⟨2, ![M, N]⟩ : Shape).Idx) :
    FloatOps.dotGeneral (DotDims.plain M K N) prec sched l r i = ∑ k : Fin K, l (ix2 (i 0) k) * r (ix2 k (i 1)) :=
  (Ideal.dotGeneral_apply _ prec sched l r i).trans (plain_dot_sum l r i)

end Idealize.ShloMosaic.ValueIdx
-- ==== Proof.KernelBody.lean ====
/-
  What the kernel body computes from the blocks it loads, entry by entry, on the extended reals.

  The body loads a 256-row block of the input x, of the hidden state h and of the cell state c, the two weight
  matrices already transposed to 1024 x 4096, and the two bias rows.  A change of float format is the identity
  on the extended reals, and a matrix product into a zero accumulator is the plain sum over the 1024 contracted
  coordinates, so row p, column j of the gate block is
      sum_k x[p,k] * WxT[k,j] + sum_k h[p,k] * WhT[k,j] + bx[0,j] + bh[0,j],
  the gates are its four column blocks of width 1024, and the two stored blocks are the new cell state and the new
  hidden state of the rows of the block.
-/
import proofs.«101910_j72997264163163_1_alg».proof.Proof.Gen.KernelIdeal.Skeleton
import proofs.«101910_j72997264163163_1_alg».proof.Proof.LibPlainDot
import proofs.«101910_j72997264163163_1_alg».proof.Proof.Spec
import Idealize.ShloMosaic.Lib.Pipeline.Value
import Idealize.ShloMosaic.Lib.ValueIdx
import Idealize.ShloMosaic.PureOps.Ideal.Laws

noncomputable section

namespace Cert.LstmBody

open Cert.KernelIdeal Cert.KernelIdeal.Gen Cert.LstmSpec Idealize.ShloMosaic Idealize.ShloMosaic.ValueIdx

/-- The body's matrix product contracts the left operand's columns with the right operand's rows: the plain
    rows-by-columns product. -/
theorem dot_plain : dot_S256x1024_S1024x4096_S256x4096_1_0_0_1_n_n = DotDims.plain 256 1024 4096 := rfl

/-- Row p, column j of a 256 x 1024 by 1024 x 4096 product into the zero accumulator. -/
theorem product_apply (l : FVec Ideal S256x1024 .bf16) (r : FVec Ideal S1024x4096 .bf16) (p : Fin 256) (j : Fin 4096) :
    matmul dot_S256x1024_S1024x4096_S256x4096_1_0_0_1_n_n none l r (constant S256x4096 .f32 0x00000000#32) (ix2 p j)
      = ∑ k : Fin 1024, l (ix2 p k) * r (ix2 k j) := by
  rw [dot_plain]
  exact plain_matmul_zero_apply (M := 256) (K := 1024) (N := 4096) none l r (ix2 p j)

/-- A bias row broadcast along the 256 rows of the block reads, at (p, j), the row's entry j. -/
theorem bias_apply (v : S1x4096.Idx → EReal) (h : S1x4096.Broadcasts S256x4096) (p : Fin 256) (j : Fin 4096) :
    broadcastTo S256x4096 v h (ix2 p j) = v (ix2 (0 : Fin 1) j) :=
  broadcastTo_apply v h (ix2 p j) (ix2 (0 : Fin 1) j) (fun a => by match a with | ⟨0, _⟩ => rfl | ⟨1, _⟩ => rfl)

/-- The four column blocks of the 256 x 4096 gate block. -/
theorem slice0_apply (g : S256x4096.Idx → EReal) (h : S256x4096.Slices ![0, 0] S256x1024) (p : Fin 256) (q : Fin 1024) :
    extractStridedSlice S256x1024 ![0, 0] g h (ix2 p q) = g (ix2 p (col0 q)) :=
  extractStridedSlice_apply ![0, 0] g h (ix2 p q) (ix2 p (col0 q)) (fun a => by
    match a with
    | ⟨0, _⟩ => show p.val = 0 + p.val; omega
    | ⟨1, _⟩ => show q.val = 0 + q.val; omega)
theorem slice1_apply (g : S256x4096.Idx → EReal) (h : S256x4096.Slices ![0, 1024] S256x1024) (p : Fin 256) (q : Fin 1024) :
    extractStridedSlice S256x1024 ![0, 1024] g h (ix2 p q) = g (ix2 p (col1 q)) :=
  extractStridedSlice_apply ![0, 1024] g h (ix2 p q) (ix2 p (col1 q)) (fun a => by
    match a with
    | ⟨0, _⟩ => show p.val = 0 + p.val; omega
    | ⟨1, _⟩ => rfl)
theorem slice2_apply (g : S256x4096.Idx → EReal) (h : S256x4096.Slices ![0, 2048] S256x1024) (p : Fin 256) (q : Fin 1024) :
    extractStridedSlice S256x1024 ![0, 2048] g h (ix2 p q) = g (ix2 p (col2 q)) :=
  extractStridedSlice_apply ![0, 2048] g h (ix2 p q) (ix2 p (col2 q)) (fun a => by
    match a with
    | ⟨0, _⟩ => show p.val = 0 + p.val; omega
    | ⟨1, _⟩ => rfl)
theorem slice3_apply (g : S256x4096.Idx → EReal) (h : S256x4096.Slices ![0, 3072] S256x1024) (p : Fin 256) (q : Fin 1024) :
    extractStridedSlice S256x1024 ![0, 3072] g h (ix2 p q) = g (ix2 p (col3 q)) :=
  extractStridedSlice_apply ![0, 3072] g h (ix2 p q) (ix2 p (col3 q)) (fun a => by
    match a with
    | ⟨0, _⟩ => show p.val = 0 + p.val; omega
    | ⟨1, _⟩ => rfl)

variable (xb hb : Vec Ideal S256x1024 .f32) (wxT whT : Vec Ideal S1024x4096 .bf16) (bxr bhr : Vec Ideal S1x4096 .f32)
  (cb : Vec Ideal S256x1024 .f32)

/-- The block's pre-activation at row p, gate column j. -/
def blockPre (p : Fin 256) (j : Fin 4096) : EReal :=
  (∑ k : Fin 1024, xb (ix2 p k) * wxT (ix2 k j)) + (∑ k : Fin 1024, hb (ix2 p k) * whT (ix2 k j))
    + bxr (ix2 (0 : Fin 1) j) + bhr (ix2 (0 : Fin 1) j)

/-- The block's new cell state at row p, hidden unit q. -/
def blockC (p : Fin 256) (q : Fin 1024) : EReal :=
  Ideal.logistic (blockPre xb hb wxT whT bxr bhr p (col1 q)) * cb (ix2 p q)
    + Ideal.logistic (blockPre xb hb wxT whT bxr bhr p (col0 q)) * Ideal.tanh (blockPre xb hb wxT whT bxr bhr p (col2 q))

/-- The block's new hidden state at row p, hidden unit q. -/
def blockH (p : Fin 256) (q : Fin 1024) : EReal :=
  Ideal.logistic (blockPre xb hb wxT whT bxr bhr p (col3 q)) * Ideal.tanh (blockC xb hb wxT whT bxr bhr cb p q)

/-- The logistic function and the hyperbolic tangent of a block, entry by entry. -/
theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-- The gate block the body computes. -/
theorem gates_apply (p : Fin 256) (j : Fin 4096) :
    k0_pay1 (F := Ideal) xb hb wxT whT bxr bhr (ix2 p j) = blockPre xb hb wxT whT bxr bhr p j := by
  unfold k0_pay1 blockPre
  simp only [shapeCast_self, addf_apply, product_apply, bias_apply, truncf_apply]

/-- The block the body stores as the new cell state. -/
theorem cell_apply (p : Fin 256) (q : Fin 1024) :
    k0_pay2 (F := Ideal) xb hb wxT whT bxr bhr cb (ix2 p q) = blockC xb hb wxT whT bxr bhr cb p q := by
  unfold k0_pay2 blockC
  simp only [shapeCast_self, addf_apply, mulf_apply, logistic_apply, tanh_apply, slice0_apply, slice1_apply, slice2_apply,
    gates_apply]

/-- The block the body stores as the new hidden state. -/
theorem hidden_apply (p : Fin 256) (q : Fin 1024) :
    k0_pay3 (F := Ideal) xb hb wxT whT bxr bhr cb (ix2 p q) = blockH xb hb wxT whT bxr bhr cb p q := by
  unfold k0_pay3 blockH
  simp only [mulf_apply, logistic_apply, tanh_apply, slice3_apply, gates_apply, cell_apply]

end Cert.LstmBody

end
-- ==== Proof.KernelHost.lean ====
/-
  The layout operations the program applies to its arguments before the kernel runs, read at an entry.

  The hidden and the cell state are the two slabs of the state array, each sliced out and its unit axis dropped; the
  weight matrices are transposed (and their float format changed, the identity on the extended reals); each bias
  vector becomes a single row.
-/
import proofs.«101910_j72997264163163_1_alg».proof.KernelIdeal
import Idealize.ShloMosaic.Lib.Pipeline.Value
import Idealize.ShloMosaic.Lib.ValueIdx

noncomputable section

namespace Cert.LstmHost

open Cert.KernelIdeal Idealize.ShloMosaic Idealize.ShloMosaic.ValueIdx

/-- Slab 0 of the state with its unit axis dropped: row b, column k is the state's entry (0, b, k). -/
theorem slab0_apply (st : S2x8192x1024.Idx → EReal) (h1 : S2x8192x1024.Slices ![0, 0, 0] S1x8192x1024)
    (h2 : S1x8192x1024.ShapeCasts S8192x1024) (b : Fin 8192) (k : Fin 1024) :
    shapeCast S8192x1024 (extractStridedSlice S1x8192x1024 ![0, 0, 0] st h1) h2 (ix2 b k) = st (ix3 (0 : Fin 2) b k) := by
  rw [shapeCast_apply _ h2 (ix2 b k) (ix3 (0 : Fin 1) b k) (by
    rewrite [Shape.rowMajor_val_three, Shape.rowMajor_val_two]
    show (0 * 8192 + b.val) * 1024 + k.val = b.val * 1024 + k.val; omega)]
  exact extractStridedSlice_apply ![0, 0, 0] st h1 (ix3 (0 : Fin 1) b k) (ix3 (0 : Fin 2) b k) (fun a => by
    match a with
    | ⟨0, _⟩ => rfl
    | ⟨1, _⟩ => show b.val = 0 + b.val; omega
    | ⟨2, _⟩ => show k.val = 0 + k.val; omega)

/-- Slab 1 of the state with its unit axis dropped: row b, column k is the state's entry (1, b, k). -/
theorem slab1_apply (st : S2x8192x1024.Idx → EReal) (h1 : S2x8192x1024.Slices ![1, 0, 0] S1x8192x1024)
    (h2 : S1x8192x1024.ShapeCasts S8192x1024) (b : Fin 8192) (k : Fin 1024) :
    shapeCast S8192x1024 (extractStridedSlice S1x8192x1024 ![1, 0, 0] st h1) h2 (ix2 b k) = st (ix3 (1 : Fin 2) b k) := by
  rw [shapeCast_apply _ h2 (ix2 b k) (ix3 (0 : Fin 1) b k) (by
    rewrite [Shape.rowMajor_val_three, Shape.rowMajor_val_two]
    show (0 * 8192 + b.val) * 1024 + k.val = b.val * 1024 + k.val; omega)]
  exact extractStridedSlice_apply ![1, 0, 0] st h1 (ix3 (0 : Fin 1) b k) (ix3 (1 : Fin 2) b k) (fun a => by
    match a with
    | ⟨0, _⟩ => rfl
    | ⟨1, _⟩ => show b.val = 0 + b.val; omega
    | ⟨2, _⟩ => show k.val = 0 + k.val; omega)

/-- A transposed weight matrix: its entry (k, j) is the matrix's entry (j, k). -/
theorem transposed_apply (w : S4096x1024.Idx → EReal) (h : S4096x1024.Transposes [1, 0] S1024x4096)
    (hb : FTy.bits .bf16 < FTy.bits .f32) (k : Fin 1024) (j : Fin 4096) :
    (truncf (F := Ideal) (φ := .f32) .bf16 (transpose S1024x4096 [1, 0] w h) hb) (ix2 k j) = w (ix2 j k) := by
  rw [truncf_apply]
  exact transpose_apply [1, 0] w h (ix2 k j) (ix2 j k) (fun b => by match b with | ⟨0, _⟩ => rfl | ⟨1, _⟩ => rfl)

/-- A bias vector as a single row: its entry (0, j) is the vector's entry j. -/
theorem row_apply (v : S4096.Idx → EReal) (h : S4096.ShapeCasts S1x4096) (j : Fin 4096) :
    shapeCast S1x4096 v h (ix2 (0 : Fin 1) j) = v (ix1 j) :=
  shapeCast_apply v h (ix2 (0 : Fin 1) j) (ix1 j) (by
    rewrite [Shape.rowMajor_val_one, Shape.rowMajor_val_two]
    show j.val = 0 * 4096 + j.val; omega)

end Cert.LstmHost

end
-- ==== Proof.KernelArrays.lean ====
/-
  The arrays the kernel leaves, as functions of the program's six arguments.

  The grid has 32 points; point t works on batch rows 256 t .. 256 t + 255.  Its blocks of the input, of the
  hidden state and of the cell state are those rows of the respective arrays; the weight and bias windows are whole
  arrays at every point.  So what point t writes back to each output is the rows 256 t .. 256 t + 255 of the new
  hidden state, respectively the new cell state, of Spec.lean; the 32 row blocks tile the 8192 rows, hence after
  the run the two output arrays are those two functions everywhere.
-/
import proofs.«101910_j72997264163163_1_alg».proof.Proof.Gen.KernelIdeal.Frame
import proofs.«101910_j72997264163163_1_alg».proof.Proof.KernelBody
import proofs.«101910_j72997264163163_1_alg».proof.Proof.KernelHost
import proofs.«101910_j72997264163163_1_alg».proof.Proof.Spec
import Idealize.ShloMosaic.Lib.Pipeline.Value
import Idealize.ShloMosaic.Lib.StableHlo.Run

set_option maxRecDepth 16384

noncomputable section

namespace Cert.LstmKernel

open Cert.KernelIdeal Cert.KernelIdeal.Gen Cert.LstmSpec Cert.LstmBody Cert.LstmHost
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## The six arguments, and the two results as functions of them -/

abbrev argX (c : Dev nD) : S8192x1024.Idx → EReal := m ((c : Thread nD τ).loc main_arg0)
abbrev argS (c : Dev nD) : S2x8192x1024.Idx → EReal := m ((c : Thread nD τ).loc main_arg1)
abbrev argWx (c : Dev nD) : S4096x1024.Idx → EReal := m ((c : Thread nD τ).loc main_arg2)
abbrev argBx (c : Dev nD) : S4096.Idx → EReal := m ((c : Thread nD τ).loc main_arg3)
abbrev argWh (c : Dev nD) : S4096x1024.Idx → EReal := m ((c : Thread nD τ).loc main_arg4)
abbrev argBh (c : Dev nD) : S4096.Idx → EReal := m ((c : Thread nD τ).loc main_arg5)

/-- The new hidden state of every batch row and hidden unit. -/
def newHArr (c : Dev nD) : S8192x1024.Idx → EReal := fun i =>
  newH (argX m c) (argS m c) (argWx m c) (argBx m c) (argWh m c) (argBh m c) (i 0) (i 1)
/-- The new cell state of every batch row and hidden unit. -/
def newCArr (c : Dev nD) : S8192x1024.Idx → EReal := fun i =>
  newC (argX m c) (argS m c) (argWx m c) (argBx m c) (argWh m c) (argBh m c) (i 0) (i 1)

/-! ## The arrays the kernel's windows read, as the host operations before it leave them -/

theorem V_hidden (c : Dev nD) : (V m c main_v1 : S8192x1024.Idx → EReal)
    = shapeCast S8192x1024 (extractStridedSlice S1x8192x1024 ![0, 0, 0] (argS m c) slices_S2x8192x1024_S1x8192x1024_0_0_0) shapeCasts_S1x8192x1024_S8192x1024 := by
  show StableHlo.after hostOps0 (fun b => m (c, b)) (Proc.devRef .tc main_v1) = _
  after_results <;> rfl
theorem V_cell (c : Dev nD) : (V m c main_v3 : S8192x1024.Idx → EReal)
    = shapeCast S8192x1024 (extractStridedSlice S1x8192x1024 ![1, 0, 0] (argS m c) slices_S2x8192x1024_S1x8192x1024_1_0_0) shapeCasts_S1x8192x1024_S8192x1024 := by
  show StableHlo.after hostOps0 (fun b => m (c, b)) (Proc.devRef .tc main_v3) = _
  after_results <;> rfl
theorem V_wxT (c : Dev nD) : (V m c main_v5 : S1024x4096.Idx → EReal)
    = truncf (F := Ideal) (φ := .f32) .bf16 (transpose S1024x4096 [1, 0] (argWx m c) transposes_S4096x1024_S1024x4096_1_0) bitsLt_bf16_f32 := by
  show StableHlo.after hostOps0 (fun b => m (c, b)) (Proc.devRef .tc main_v5) = _
  after_results <;> rfl
theorem V_whT (c : Dev nD) : (V m c main_v7 : S1024x4096.Idx → EReal)
    = truncf (F := Ideal) (φ := .f32) .bf16 (transpose S1024x4096 [1, 0] (argWh m c) transposes_S4096x1024_S1024x4096_1_0) bitsLt_bf16_f32 := by
  show StableHlo.after hostOps0 (fun b => m (c, b)) (Proc.devRef .tc main_v7) = _
  after_results <;> rfl
theorem V_bxRow (c : Dev nD) : (V m c main_v8 : S1x4096.Idx → EReal) = shapeCast S1x4096 (argBx m c) shapeCasts_S4096_S1x4096 := by
  show StableHlo.after hostOps0 (fun b => m (c, b)) (Proc.devRef .tc main_v8) = _
  after_results <;> rfl
theorem V_bhRow (c : Dev nD) : (V m c main_v9 : S1x4096.Idx → EReal) = shapeCast S1x4096 (argBh m c) shapeCasts_S4096_S1x4096 := by
  show StableHlo.after hostOps0 (fun b => m (c, b)) (Proc.devRef .tc main_v9) = _
  after_results <;> rfl

/-! ## The blocks of a point -/

/-- The grid has 32 points. -/
theorem point_lt (t : Fin cfg0.N) : t.val < 32 := Nat.lt_of_lt_of_eq t.isLt N_0

/-- The batch row of row p of point t's block. -/
abbrev row (t : Fin cfg0.N) (p : Fin 256) : Fin 8192 :=
  ⟨t.val * 256 + p.val, by have := point_lt t; have := p.isLt; omega⟩

/-- The printed index maps over the grid: the batch-tiled windows are at block (t, 0), the resident ones at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

abbrev xblk (c : Dev nD) (t : Fin cfg0.N) : Vec Ideal S256x1024 .f32 := iblk m c 0 t
abbrev hblk (c : Dev nD) (t : Fin cfg0.N) : Vec Ideal S256x1024 .f32 := iblk m c 1 t
abbrev cblk (c : Dev nD) (t : Fin cfg0.N) : Vec Ideal S256x1024 .f32 := iblk m c 2 t
abbrev wxblk (c : Dev nD) (t : Fin cfg0.N) : Vec Ideal S1024x4096 .bf16 := iblk m c 3 t
abbrev whblk (c : Dev nD) (t : Fin cfg0.N) : Vec Ideal S1024x4096 .bf16 := iblk m c 4 t
abbrev bxblk (c : Dev nD) (t : Fin cfg0.N) : Vec Ideal S1x4096 .f32 := iblk m c 5 t
abbrev bhblk (c : Dev nD) (t : Fin cfg0.N) : Vec Ideal S1x4096 .f32 := iblk m c 6 t

/-- Row p of the input's block at point t is batch row 256 t + p of the input. -/
theorem xblk_apply (c : Dev nD) (t : Fin cfg0.N) (p : Fin 256) (k : Fin 1024) :
    xblk m c t (ix2 p k) = argX m c (ix2 (row t p) k) := by
  obtain ⟨e0, e1, -⟩ := idx_facts t
  show V m c main_arg0 (((cfg0.win 0).blk t).view.emb (ix2 p k)) = _
  rw [V_main_arg0]
  refine congrArg (argX m c) (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * k.val = k.val; omega

/-- Row p of the hidden state's block at point t is batch row 256 t + p of slab 0 of the state. -/
theorem hblk_apply (c : Dev nD) (t : Fin cfg0.N) (p : Fin 256) (k : Fin 1024) :
    hblk m c t (ix2 p k) = argS m c (ix3 (0 : Fin 2) (row t p) k) := by
  obtain ⟨-, -, e0, e1, -⟩ := idx_facts t
  show V m c main_v1 (((cfg0.win 1).blk t).view.emb (ix2 p k)) = _
  have e : ((cfg0.win 1).blk t).view.emb (ix2 p k) = ix2 (row t p) k := funext fun a => Fin.ext (by
    match a with
    | ⟨0, _⟩ => show win0_1.index t (0 : Fin 2) * 256 + 1 * p.val = t.val * 256 + p.val; omega
    | ⟨1, _⟩ => show win0_1.index t (1 : Fin 2) * 1024 + 1 * k.val = k.val; omega)
  exact (congrArg (V m c main_v1) e).trans ((congrFun (V_hidden m c) _).trans (slab0_apply _ _ _ _ _))

/-- Row p of the cell state's block at point t is batch row 256 t + p of slab 1 of the state. -/
theorem cblk_apply (c : Dev nD) (t : Fin cfg0.N) (p : Fin 256) (k : Fin 1024) :
    cblk m c t (ix2 p k) = argS m c (ix3 (1 : Fin 2) (row t p) k) := by
  obtain ⟨-, -, -, -, e0, e1, -⟩ := idx_facts t
  show V m c main_v3 (((cfg0.win 2).blk t).view.emb (ix2 p k)) = _
  have e : ((cfg0.win 2).blk t).view.emb (ix2 p k) = ix2 (row t p) k := funext fun a => Fin.ext (by
    match a with
    | ⟨0, _⟩ => show win0_2.index t (0 : Fin 2) * 256 + 1 * p.val = t.val * 256 + p.val; omega
    | ⟨1, _⟩ => show win0_2.index t (1 : Fin 2) * 1024 + 1 * k.val = k.val; omega)
  exact (congrArg (V m c main_v3) e).trans ((congrFun (V_cell m c) _).trans (slab1_apply _ _ _ _ _))

/-- The input weights' window is the whole transposed matrix at every point. -/
theorem wxblk_apply (c : Dev nD) (t : Fin cfg0.N) (k : Fin 1024) (j : Fin 4096) :
    wxblk m c t (ix2 k j) = argWx m c (ix2 j k) := by
  obtain ⟨-, -, -, -, -, -, e0, e1, -⟩ := idx_facts t
  show V m c main_v5 (((cfg0.win 3).blk t).view.emb (ix2 k j)) = _
  have e : ((cfg0.win 3).blk t).view.emb (ix2 k j) = ix2 k j := funext fun a => Fin.ext (by
    match a with
    | ⟨0, _⟩ => show win0_3.index t (0 : Fin 2) * 1024 + 1 * k.val = k.val; omega
    | ⟨1, _⟩ => show win0_3.index t (1 : Fin 2) * 4096 + 1 * j.val = j.val; omega)
  exact (congrArg (V m c main_v5) e).trans ((congrFun (V_wxT m c) _).trans (transposed_apply _ _ _ _ _))

/-- The hidden weights' window is the whole transposed matrix at every point. -/
theorem whblk_apply (c : Dev nD) (t : Fin cfg0.N) (k : Fin 1024) (j : Fin 4096) :
    whblk m c t (ix2 k j) = argWh m c (ix2 j k) := by
  obtain ⟨-, -, -, -, -, -, -, -, e0, e1, -⟩ := idx_facts t
  show V m c main_v7 (((cfg0.win 4).blk t).view.emb (ix2 k j)) = _
  have e : ((cfg0.win 4).blk t).view.emb (ix2 k j) = ix2 k j := funext fun a => Fin.ext (by
    match a with
    | ⟨0, _⟩ => show win0_4.index t (0 : Fin 2) * 1024 + 1 * k.val = k.val; omega
    | ⟨1, _⟩ => show win0_4.index t (1 : Fin 2) * 4096 + 1 * j.val = j.val; omega)
  exact (congrArg (V m c main_v7) e).trans ((congrFun (V_whT m c) _).trans (transposed_apply _ _ _ _ _))

/-- The bias windows are the whole bias rows at every point. -/
theorem bxblk_apply (c : Dev nD) (t : Fin cfg0.N) (j : Fin 4096) :
    bxblk m c t (ix2 (0 : Fin 1) j) = argBx m c (ix1 j) := by
  obtain ⟨-, -, -, -, -, -, -, -, -, -, e0, e1, -⟩ := idx_facts t
  show V m c main_v8 (((cfg0.win 5).blk t).view.emb (ix2 (0 : Fin 1) j)) = _
  have e : ((cfg0.win 5).blk t).view.emb (ix2 (0 : Fin 1) j) = ix2 (0 : Fin 1) j := funext fun a => Fin.ext (by
    match a with
    | ⟨0, _⟩ => show win0_5.index t (0 : Fin 2) * 1 + 1 * 0 = 0; omega
    | ⟨1, _⟩ => show win0_5.index t (1 : Fin 2) * 4096 + 1 * j.val = j.val; omega)
  exact (congrArg (V m c main_v8) e).trans ((congrFun (V_bxRow m c) _).trans (row_apply _ _ _))
theorem bhblk_apply (c : Dev nD) (t : Fin cfg0.N) (j : Fin 4096) :
    bhblk m c t (ix2 (0 : Fin 1) j) = argBh m c (ix1 j) := by
  obtain ⟨-, -, -, -, -, -, -, -, -, -, -, -, e0, e1, -⟩ := idx_facts t
  show V m c main_v9 (((cfg0.win 6).blk t).view.emb (ix2 (0 : Fin 1) j)) = _
  have e : ((cfg0.win 6).blk t).view.emb (ix2 (0 : Fin 1) j) = ix2 (0 : Fin 1) j := funext fun a => Fin.ext (by
    match a with
    | ⟨0, _⟩ => show win0_6.index t (0 : Fin 2) * 1 + 1 * 0 = 0; omega
    | ⟨1, _⟩ => show win0_6.index t (1 : Fin 2) * 4096 + 1 * j.val = j.val; omega)
  exact (congrArg (V m c main_v9) e).trans ((congrFun (V_bhRow m c) _).trans (row_apply _ _ _))

/-! ## What a point computes is the LSTM step of its rows -/

theorem blockPre_eq (c : Dev nD) (t : Fin cfg0.N) (p : Fin 256) (j : Fin 4096) :
    blockPre (xblk m c t) (hblk m c t) (wxblk m c t) (whblk m c t) (bxblk m c t) (bhblk m c t) p j
      = pre (argX m c) (argS m c) (argWx m c) (argBx m c) (argWh m c) (argBh m c) (row t p) j := by
  unfold blockPre pre dotX dotH
  simp only [xblk_apply, hblk_apply, wxblk_apply, whblk_apply, bxblk_apply, bhblk_apply]

theorem blockC_eq (c : Dev nD) (t : Fin cfg0.N) (p : Fin 256) (q : Fin 1024) :
    blockC (xblk m c t) (hblk m c t) (wxblk m c t) (whblk m c t) (bxblk m c t) (bhblk m c t) (cblk m c t) p q
      = newC (argX m c) (argS m c) (argWx m c) (argBx m c) (argWh m c) (argBh m c) (row t p) q := by
  unfold blockC newC
  rw [blockPre_eq, blockPre_eq, blockPre_eq, cblk_apply]

theorem blockH_eq (c : Dev nD) (t : Fin cfg0.N) (p : Fin 256) (q : Fin 1024) :
    blockH (xblk m c t) (hblk m c t) (wxblk m c t) (whblk m c t) (bxblk m c t) (bhblk m c t) (cblk m c t) p q
      = newH (argX m c) (argS m c) (argWx m c) (argBx m c) (argWh m c) (argBh m c) (row t p) q := by
  unfold blockH newH
  rw [blockPre_eq, blockC_eq]

end Cert.LstmKernel

end
-- ==== Proof.KernelRun.lean ====
/-
  The kernel program's run, with its result named.

  What point t writes back to an output window is a block of one whole-array function (the new hidden state, the new
  cell state), and the 32 row blocks cover the 8192 rows, so after the pipeline each output array is that function.
  The host operations after the kernel give each array a leading unit axis and join the two along it.
-/
import proofs.«101910_j72997264163163_1_alg».proof.Proof.KernelArrays

set_option maxRecDepth 16384

noncomputable section

namespace Cert.LstmKernel

open Cert.KernelIdeal Cert.KernelIdeal.Gen Cert.LstmSpec Cert.LstmBody Cert.LstmHost
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

theorem zero_offsets : (![0, 0] : Fin 2 → Nat) = fun _ => 0 := funext fun a => by fin_cases a <;> rfl

/-- The stored hidden-state block at an entry of the block. -/
theorem hidden_at (c : Dev nD) (t : Fin cfg0.N) (y : S256x1024.Idx) :
    k0_pay3 (F := Ideal) (xblk m c t) (hblk m c t) (wxblk m c t) (whblk m c t) (bxblk m c t) (bhblk m c t) (cblk m c t) y
      = newH (argX m c) (argS m c) (argWx m c) (argBx m c) (argWh m c) (argBh m c) (row t (y 0)) (y 1) := by
  obtain ⟨p, q, rfl⟩ : ∃ (p : Fin 256) (q : Fin 1024), y = ix2 p q := ⟨y 0, y 1, eq_ix2 y⟩
  exact (hidden_apply _ _ _ _ _ _ _ p q).trans (blockH_eq m c t p q)

/-- The stored cell-state block at an entry of the block. -/
theorem cell_at (c : Dev nD) (t : Fin cfg0.N) (y : S256x1024.Idx) :
    k0_pay2 (F := Ideal) (xblk m c t) (hblk m c t) (wxblk m c t) (whblk m c t) (bxblk m c t) (bhblk m c t) (cblk m c t) y
      = newC (argX m c) (argS m c) (argWx m c) (argBx m c) (argWh m c) (argBh m c) (row t (y 0)) (y 1) := by
  obtain ⟨p, q, rfl⟩ : ∃ (p : Fin 256) (q : Fin 1024), y = ix2 p q := ⟨y 0, y 1, eq_ix2 y⟩
  exact (cell_apply _ _ _ _ _ _ _ p q).trans (blockC_eq m c t p q)

/-- What point t writes back to the hidden-state output is block t of the new hidden state. -/
theorem flushedH_eq (c : Dev nD) (t : Fin cfg0.N) :
    (dats m 0 c).flushed 7 t = ((cfg0.win 7).blk t).view.read (Elt Ideal) (newHArr m c) := by
  obtain ⟨-, -, -, -, -, -, -, -, -, -, -, -, -, -, e0, e1, -⟩ := idx_facts t
  show (cfg0.win 7).cut (grid0.coords t) ((dats m 0 c).after 7 t) = _
  rw [after0_7]
  unfold out0_7
  rw [View.canon_unit_zero zero_offsets]
  simp only [View.ld_unit_zero (S := S256x1024) zero_offsets, View.ld_unit_zero (S := S1024x4096) zero_offsets,
    View.ld_unit_zero (S := S1x4096) zero_offsets]
  funext y
  show k0_pay3 (F := Ideal) (xblk m c t) (hblk m c t) (wxblk m c t) (whblk m c t) (bxblk m c t) (bhblk m c t) (cblk m c t) y
    = newHArr m c (((cfg0.win 7).blk t).view.emb y)
  refine (hidden_at m c t y).trans ?_
  have r0 : row t (y 0) = (((cfg0.win 7).blk t).view.emb y) 0 := Fin.ext (by
    show t.val * 256 + (y 0).val = win0_7.index t (0 : Fin 2) * 256 + 1 * (y 0).val; omega)
  have r1 : y 1 = (((cfg0.win 7).blk t).view.emb y) 1 := Fin.ext (by
    show (y 1).val = win0_7.index t (1 : Fin 2) * 1024 + 1 * (y 1).val; omega)
  exact congrArg₂ (newH (argX m c) (argS m c) (argWx m c) (argBx m c) (argWh m c) (argBh m c)) r0 r1

/-- What point t writes back to the cell-state output is block t of the new cell state. -/
theorem flushedC_eq (c : Dev nD) (t : Fin cfg0.N) :
    (dats m 0 c).flushed 8 t = ((cfg0.win 8).blk t).view.read (Elt Ideal) (newCArr m c) := by
  obtain ⟨-, -, -, -, -, -, -, -, -, -, -, -, -, -, -, -, e0, e1⟩ := idx_facts t
  show (cfg0.win 8).cut (grid0.coords t) ((dats m 0 c).after 8 t) = _
  rw [after0_8]
  unfold out0_8
  rw [View.canon_unit_zero zero_offsets]
  simp only [View.ld_unit_zero (S := S256x1024) zero_offsets, View.ld_unit_zero (S := S1024x4096) zero_offsets,
    View.ld_unit_zero (S := S1x4096) zero_offsets]
  funext y
  show k0_pay2 (F := Ideal) (xblk m c t) (hblk m c t) (wxblk m c t) (whblk m c t) (bxblk m c t) (bhblk m c t) (cblk m c t) y
    = newCArr m c (((cfg0.win 8).blk t).view.emb y)
  refine (cell_at m c t y).trans ?_
  have r0 : row t (y 0) = (((cfg0.win 8).blk t).view.emb y) 0 := Fin.ext (by
    show t.val * 256 + (y 0).val = win0_8.index t (0 : Fin 2) * 256 + 1 * (y 0).val; omega)
  have r1 : y 1 = (((cfg0.win 8).blk t).view.emb y) 1 := Fin.ext (by
    show (y 1).val = win0_8.index t (1 : Fin 2) * 1024 + 1 * (y 1).val; omega)
  exact congrArg₂ (newC (argX m c) (argS m c) (argWx m c) (argBx m c) (argWh m c) (argBh m c)) r0 r1

/-- An entry of the hidden-state output is in point t's block iff each coordinate is in the block's range. -/
theorem mem_blkH (t : Fin cfg0.N) (i : S8192x1024.Idx) :
    i ∈ ((cfg0.win 7).blk t).view.set ↔ ∀ a : Fin 2, win0_7.index t a * S256x1024.size a ≤ (i a).val
      ∧ (i a).val < win0_7.index t a * S256x1024.size a + S256x1024.size a := by
  show i ∈ ((View.whole main_v10_0).slice (win0_7.rect t)).set ↔ _
  rw [View.set_slice_whole, Rect.mem_set_unit]
  exact Iff.rfl
theorem mem_blkC (t : Fin cfg0.N) (i : S8192x1024.Idx) :
    i ∈ ((cfg0.win 8).blk t).view.set ↔ ∀ a : Fin 2, win0_8.index t a * S256x1024.size a ≤ (i a).val
      ∧ (i a).val < win0_8.index t a * S256x1024.size a + S256x1024.size a := by
  show i ∈ ((View.whole main_v10_1).slice (win0_8.rect t)).set ↔ _
  rw [View.set_slice_whole, Rect.mem_set_unit]
  exact Iff.rfl

/-- The point whose block holds batch row r. -/
abbrev pointOf (i : S8192x1024.Idx) : Fin cfg0.N :=
  ⟨(i 0).val / 256, by have h : (i 0).val < 8192 := (i 0).isLt; have := N_0; show (i 0).val / 256 < grid0.N; omega⟩

/-- The 32 row blocks cover the output arrays. -/
theorem coverH (i : S8192x1024.Idx) : ∃ t : Fin cfg0.N, (cfg0.win 7).flush t = true ∧ i ∈ ((cfg0.win 7).blk t).view.set := by
  have h0 : (i 0).val < 8192 := (i 0).isLt
  have h1 : (i 1).val < 1024 := (i 1).isLt
  obtain ⟨-, -, -, -, -, -, -, -, -, -, -, -, -, -, e0, e1, -⟩ := idx_facts (pointOf i)
  have ht : (pointOf i).val = (i 0).val / 256 := rfl
  refine ⟨pointOf i, flush0_7 _, ?_⟩
  rw [mem_blkH]
  intro a
  match a with
  | ⟨0, _⟩ => show win0_7.index (pointOf i) (0 : Fin 2) * 256 ≤ (i 0).val ∧ (i 0).val < win0_7.index (pointOf i) (0 : Fin 2) * 256 + 256; omega
  | ⟨1, _⟩ => show win0_7.index (pointOf i) (1 : Fin 2) * 1024 ≤ (i 1).val ∧ (i 1).val < win0_7.index (pointOf i) (1 : Fin 2) * 1024 + 1024; omega
theorem coverC (i : S8192x1024.Idx) : ∃ t : Fin cfg0.N, (cfg0.win 8).flush t = true ∧ i ∈ ((cfg0.win 8).blk t).view.set := by
  have h0 : (i 0).val < 8192 := (i 0).isLt
  have h1 : (i 1).val < 1024 := (i 1).isLt
  obtain ⟨-, -, -, -, -, -, -, -, -, -, -, -, -, -, -, -, e0, e1⟩ := idx_facts (pointOf i)
  have ht : (pointOf i).val = (i 0).val / 256 := rfl
  refine ⟨pointOf i, flush0_8 _, ?_⟩
  rw [mem_blkC]
  intro a
  match a with
  | ⟨0, _⟩ => show win0_8.index (pointOf i) (0 : Fin 2) * 256 ≤ (i 0).val ∧ (i 0).val < win0_8.index (pointOf i) (0 : Fin 2) * 256 + 256; omega
  | ⟨1, _⟩ => show win0_8.index (pointOf i) (1 : Fin 2) * 1024 ≤ (i 1).val ∧ (i 1).val < win0_8.index (pointOf i) (1 : Fin 2) * 1024 + 1024; omega

/-- After the pipeline the two output arrays are the new hidden state and the new cell state. -/
theorem finalH (c : Dev nD) : (dats m 0 c).arrAt 7 cfg0.N = newHArr m c :=
  (dats m 0 c).arrAt_eq_of_cover 7 (newHArr m c) (fun t _ => flushedH_eq m c t) coverH
theorem finalC (c : Dev nD) : (dats m 0 c).arrAt 8 cfg0.N = newCArr m c :=
  (dats m 0 c).arrAt_eq_of_cover 8 (newCArr m c) (fun t _ => flushedC_eq m c t) coverC

/-- Two 8192 x 1024 arrays stacked along a new leading axis. -/
def stacked (a b : S8192x1024.Idx → EReal) : S2x8192x1024.Idx → EReal :=
  concatenate S2x8192x1024 0
    [⟨S1x8192x1024, broadcastInDim S1x8192x1024 ![1, 2] bcast_S8192x1024_S1x8192x1024_1_2 a⟩,
     ⟨S1x8192x1024, broadcastInDim S1x8192x1024 ![1, 2] bcast_S8192x1024_S1x8192x1024_1_2 b⟩]
    concatenates_S1x8192x1024_S1x8192x1024_S2x8192x1024_d0

/-- The program's result after the host operations that follow the kernel. -/
theorem result_eq (c : Dev nD) :
    Pipeline.afterTail₀ cfgs (dats m) 0 (V0 m) [hostOps1] c main_v13 = stacked (newHArr m c) (newCArr m c) := by
  unfold Pipeline.afterTail₀
  show StableHlo.after hostOps1 _ (Proc.devRef .tc main_v13) = _
  after_results
  exact congrArg₂ stacked
    ((Pipeline.withArrays_arr spec0 launch0.win.arr_inj c _ _ 7).trans (finalH m c))
    ((Pipeline.withArrays_arr spec0 launch0.win.arr_inj c _ _ 8).trans (finalC m c))

/-- Every weakly fair execution of the kernel program terminates with the new hidden state stacked over the new cell
    state in its result and its six arguments unchanged. -/
theorem run : θ_run defs (onTc (τ := τ) (main (F := Ideal))) ⟨m, fun _ => 0, ρ⟩ (fun r => ∀ c : Dev nD,
      r.2.mem ((c.tc : Thread nD τ).loc main_v13) = stacked (newHArr m c) (newCArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v13 (Pipeline.mem_restRefs_of main_v13 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.LstmKernel

end
-- ==== Proof.lean ====
/-
  One step of an LSTM cell: a fused kernel against the plain formula.

  Both programs compute, for batch row b and hidden unit q,
      newC = sigma(pre_f) * c + sigma(pre_i) * tanh(pre_g),     newH = sigma(pre_o) * tanh(newC),
  where the four pre-activations are the column blocks of  x.Wx^T + h.Wh^T + bx + bh  (Proof/Spec.lean), and return
  newH stacked over newC.  The kernel works on 32 blocks of 256 batch rows, with the weights transposed beforehand and
  kept whole, and adds the four summands as ((x.Wx^T + h.Wh^T) + bx) + bh; the reference adds them as
  ((x.Wx^T + bx) + h.Wh^T) + bh and spells the logistic function out as 1 / (1 + exp(-z)).  On the extended reals
  addition is commutative and associative and that quotient is the logistic function, so the two results are equal
  entry by entry; no finiteness of the inputs is used.
  The kernel's side: Proof/KernelBody.lean (what a block computes), Proof/KernelHost.lean and Proof/KernelArrays.lean
  (the blocks are rows of the arguments), Proof/KernelRun.lean (the arrays after the run and the program's result).
  The reference's side: Proof/RefSide.lean.
-/
import proofs.«101910_j72997264163163_1_alg».proof.Defs
import proofs.«101910_j72997264163163_1_alg».proof.Proof.Gen.Kernel
import proofs.«101910_j72997264163163_1_alg».proof.Proof.Gen.Kernel.Skeleton
import proofs.«101910_j72997264163163_1_alg».proof.Proof.Gen.Kernel.Launch
import proofs.«101910_j72997264163163_1_alg».proof.Proof.Gen.Kernel.Points
import proofs.«101910_j72997264163163_1_alg».proof.Proof.Gen.Kernel.Frame
import proofs.«101910_j72997264163163_1_alg».proof.Proof.Gen.KernelIdeal
import proofs.«101910_j72997264163163_1_alg».proof.Proof.Gen.KernelIdeal.Skeleton
import proofs.«101910_j72997264163163_1_alg».proof.Proof.Gen.KernelIdeal.Launch
import proofs.«101910_j72997264163163_1_alg».proof.Proof.Gen.KernelIdeal.Points
import proofs.«101910_j72997264163163_1_alg».proof.Proof.Gen.KernelIdeal.Frame
import proofs.«101910_j72997264163163_1_alg».proof.Proof.Gen.ReferenceIdeal
import proofs.«101910_j72997264163163_1_alg».proof.Proof.Gen.Pre_finite_inputs
import proofs.«101910_j72997264163163_1_alg».proof.Proof.Gen.ReferenceIdeal.Run
import proofs.«101910_j72997264163163_1_alg».proof.Proof.Gen.ReferenceIdeal.Read
import proofs.«101910_j72997264163163_1_alg».proof.Proof.RefSide
import proofs.«101910_j72997264163163_1_alg».proof.Proof.KernelRun
import Idealize.ShloMosaic.Adequacy
import Idealize.ShloMosaic.Init

noncomputable section

namespace Cert.Proof

open Idealize.ShloMosaic Idealize.ShloMosaic.ValueIdx Idealize.SL.Sem

/-- The reference's result is the new hidden state stacked over the new cell state, as functions of its arguments:
    the two stacked arrays are read entry by entry (Proof/RefSide.lean), the stacking is the same operation. -/
theorem reference_result (x0 : (⟨Cert.ReferenceIdeal.S8192x1024, .f32⟩ : BufTy).Contents (Elt Ideal))
    (x1 : (⟨Cert.ReferenceIdeal.S2x8192x1024, .f32⟩ : BufTy).Contents (Elt Ideal))
    (x2 : (⟨Cert.ReferenceIdeal.S4096x1024, .f32⟩ : BufTy).Contents (Elt Ideal))
    (x3 : (⟨Cert.ReferenceIdeal.S4096, .f32⟩ : BufTy).Contents (Elt Ideal))
    (x4 : (⟨Cert.ReferenceIdeal.S4096x1024, .f32⟩ : BufTy).Contents (Elt Ideal))
    (x5 : (⟨Cert.ReferenceIdeal.S4096, .f32⟩ : BufTy).Contents (Elt Ideal)) :
    Cert.ReferenceIdeal.Read.val_main_v43 (F := Ideal) x0 x1 x2 x3 x4 x5
      = Cert.LstmKernel.stacked (fun i => Cert.LstmSpec.newH x0 x1 x2 x3 x4 x5 (i 0) (i 1))
          (fun i => Cert.LstmSpec.newC x0 x1 x2 x3 x4 x5 (i 0) (i 1)) := by
  have eH : Cert.ReferenceIdeal.Read.val_main_v40 (F := Ideal) x0 x1 x2 x3 x4 x5
      = fun i => Cert.LstmSpec.newH x0 x1 x2 x3 x4 x5 (i 0) (i 1) := funext fun i => by
    obtain ⟨b, q, rfl⟩ : ∃ (b : Fin 8192) (q : Fin 1024), i = ix2 b q := ⟨i 0, i 1, eq_ix2 i⟩
    exact Cert.LstmRef.ref_newH x0 x1 x2 x3 x4 x5 b q
  have eC : Cert.ReferenceIdeal.Read.val_main_v38 (F := Ideal) x0 x1 x2 x3 x4 x5
      = fun i => Cert.LstmSpec.newC x0 x1 x2 x3 x4 x5 (i 0) (i 1) := funext fun i => by
    obtain ⟨b, q, rfl⟩ : ∃ (b : Fin 8192) (q : Fin 1024), i = ix2 b q := ⟨i 0, i 1, eq_ix2 i⟩
    exact Cert.LstmRef.ref_newC x0 x1 x2 x3 x4 x5 b q
  unfold Cert.ReferenceIdeal.Read.val_main_v43 Cert.ReferenceIdeal.Read.val_main_v41 Cert.ReferenceIdeal.Read.val_main_v42
  rw [eH, eC]
  rfl

theorem frame_kernel : Cert.frame_Kernel := fun m ρ _ => Cert.Kernel.Gen.frame m ρ
theorem frame_kernel_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- The kernel program ends at the stacked new states of its arguments (Proof/KernelRun.lean), the reference at the
    stacked new states of its own (`reference_result`), and the arguments agree. -/
theorem algebraic : Cert.algebraic_KernelIdeal_ReferenceIdeal := by
  intro m ρ m' ρ' _ hagree
  refine ⟨fun c => Cert.LstmKernel.stacked (Cert.LstmKernel.newHArr m c) (Cert.LstmKernel.newCArr m c),
    Cert.LstmKernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v43_eq, h0, h1, h2, h3, h4, h5]
  exact reference_result _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
